-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x2048 .f32) (main_arg5 : FVec F S2048x2048 .f32) (main_arg6 : FVec F S2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048x2048 .f32) (main_arg3 : FVec F S1x2048 .f32) (main_arg4 : FVec F S1x2048 .f32) (main_arg5 : FVec F S2048x2048 .f32) (main_arg6 : FVec F S2048 .f32) (main_arg7 : IVec S4096x2048 32) (main_arg8 : IVec S4096x2048 32) (main_arg9 : IVec S4096x2048 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S256x256 : Shape := ⟨2, ![256, 256]⟩
abbrev S256x2048 : Shape := ⟨2, ![256, 2048]⟩

abbrev nBuf : Space → Nat
  | .hbm => 12
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048, .f32⟩
  | .hbm, ⟨7, _⟩ => ⟨S4096x2048, .i32⟩
  | .hbm, ⟨8, _⟩ => ⟨S4096x2048, .i32⟩
  | .hbm, ⟨9, _⟩ => ⟨S4096x2048, .i32⟩
  | .hbm, ⟨10, _⟩ => ⟨S1x2048, .f32⟩
  | .hbm, ⟨11, _⟩ => ⟨S4096x2048, .f32⟩
  | .local _ .vmem, ⟨0, _⟩ => ⟨S256x256, .f32⟩
  | .local _ .vmem, ⟨1, _⟩ => ⟨S256x256, .f32⟩
  | .local _ .vmem, ⟨2, _⟩ => ⟨S256x256, .i32⟩
  | .local _ .vmem, ⟨3, _⟩ => ⟨S256x256, .i32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .i32⟩
  | .local _ .vmem, ⟨11, _⟩ => ⟨S256x2048, .i32⟩
  | .local _ .vmem, ⟨12, _⟩ => ⟨S256x2048, .i32⟩
  | .local _ .vmem, ⟨13, _⟩ => ⟨S256x2048, .i32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x2048.size a
  hwx0_0 : ∀ i : grid0.Coords, EltTy.bits .f32 = 32 ∨ (Rect.block (s := S4096x2048) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x2048.size a
  hwx0_1 : ∀ i : grid0.Coords, EltTy.bits .i32 = 32 ∨ (Rect.block (s := S4096x2048) S256x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .f32 = 32 ∨ (Rect.block (s := S2048x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .i32 = 32 ∨ (Rect.block (s := S4096x2048) S256x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .i32 = 32 ∨ (Rect.block (s := S4096x2048) S256x2048.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S4096x2048.size a
  hwx0_10 : ∀ i : grid0.Coords, EltTy.bits .f32 = 32 ∨ (Rect.block (s := S4096x2048) S256x2048.size (cc0_transform_10 i) (hinb0_10 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S256x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048, .f32⟩
  | .hbm, ⟨7, _⟩ => ⟨S4096x2048, .i32⟩
  | .hbm, ⟨8, _⟩ => ⟨S4096x2048, .i32⟩
  | .hbm, ⟨9, _⟩ => ⟨S4096x2048, .i32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .i1⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .i1⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S1x2048_S2048 : S1x2048.ShapeCasts S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KernelPieces.lean ====
/-
  What one grid point leaves in the two accumulators and in the output block, as values.

  The kernel keeps two 256 x 2048 accumulators across the eight points of a batch tile: the mean product
  x · w_loc and the perturbation product (x · s) · (softplus(w_std) · eps_w). Each point overwrites each accumulator whole
  with "what it held plus this point's block product"; the first point of a tile first overwrites it with zeros and then
  adds; the last point, after adding, overwrites the output block whole with the finished expression. Every such
  overwrite is one store of the whole buffer, so what the buffer holds afterwards is that store's value, and a load of
  the whole buffer made after a store returns that store's value. The lemmas below say this for the three kinds of
  point, for either accumulator and for the output block, at any float instance.
-/
import proofs.«156300_j45114336477600_1_alg».proof.Proof.Gen.KernelIdeal.Frame
import Idealize.ShloMosaic.Lib.Pipeline.Value
import Idealize.ShloMosaic.Lib.Tactic

set_option maxRecDepth 16384

noncomputable section

namespace Cert.Flipout.Kernel

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S256x256 .f32) (h2 : a2.IsWhole) (a3 : Memref sig .tc .vmem S256x256 .i32) (h3 : a3.IsWhole)
  (a4 : Memref sig .tc .vmem S256x2048 .f32) (h4 : a4.IsWhole) (a5 : Memref sig .tc .vmem S256x2048 .f32) (h5 : a5.IsWhole)
  (a6 : Memref sig .tc .vmem S256x2048 .f32) (h6 : a6.IsWhole) (a7 : Memref sig .tc .vmem S256x2048 .i32) (h7 : a7.IsWhole)
  (a8 : Memref sig .tc .vmem S256x2048 .i32) (h8 : a8.IsWhole) (a9 : Memref sig .tc .vmem S1x2048 .f32) (h9 : a9.IsWhole)
  (a10 : Memref sig .tc .vmem S1x2048 .f32) (h10 : a10.IsWhole) (a11 : Memref sig .tc .vmem S1x2048 .f32) (h11 : a11.IsWhole)
  (a12 : Memref sig .tc .vmem S256x2048 .f32) (h12 : a12.IsWhole) (a13 : Memref sig .tc .vmem S256x2048 .f32) (h13 : a13.IsWhole)
  (a14 : Memref sig .tc .vmem S256x2048 .f32) (h14 : a14.IsWhole)
  (x0 : Vec F S256x256 .f32) (x1 : Vec F S256x256 .i32) (x2 x3 x4 : Vec F S256x2048 .f32) (x5 x6 : Vec F S256x2048 .i32)
  (x7 x8 x9 : Vec F S1x2048 .f32) (xs0 xs1 : Vec F S256x2048 .f32)

/-- the sum of the mean product so far plus this point's block product -/
abbrev meanStep (x0 : Vec F S256x256 .f32) (x2 acc : Vec F S256x2048 .f32) : Vec F S256x2048 .f32 := k0_pay8 x0 x2 acc

/-- the perturbation product so far plus this point's block product -/
abbrev pertStep (x0 : Vec F S256x256 .f32) (x1 : Vec F S256x256 .i32) (x3 x4 acc : Vec F S256x2048 .f32) :
    Vec F S256x2048 .f32 := k0_pay1 (k0_pay6 x0 x1) (k0_pay7 x3 x4) acc

/-- A middle point of a tile adds its block product to the mean accumulator. -/
theorem mean_middle (hc0 : ¬cond0_0 i) (hc1 : ¬cond0_1 i) :
    sout0_B_0 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1 = meanStep x0 x2 xs0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1)]
  unfold kernelRun0_B
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

/-- A middle point of a tile adds its block product to the perturbation accumulator. -/
theorem pert_middle (hc0 : ¬cond0_0 i) (hc1 : ¬cond0_1 i) :
    sout0_B_1 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1 = pertStep x0 x1 x3 x4 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1)]
  unfold kernelRun0_B
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

/-- The last point of a tile adds its block product to the mean accumulator like any other. -/
theorem mean_last (hc0 : ¬cond0_0 i) (hc1 : cond0_1 i) :
    sout0_C_0 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1 = meanStep x0 x2 xs0 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1)]
  unfold kernelRun0_C
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

/-- The last point of a tile adds its block product to the perturbation accumulator like any other. -/
theorem pert_last (hc0 : ¬cond0_0 i) (hc1 : cond0_1 i) :
    sout0_C_1 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1 = pertStep x0 x1 x3 x4 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1)]
  unfold kernelRun0_C
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

/-- The last point of a tile stores the finished expression, over the two accumulators as it has just left them. -/
theorem out_last (hc0 : ¬cond0_0 i) (hc1 : cond0_1 i) :
    out0_C_10 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1
      = k0_pay2 x5 x6 x8 x9 x7 (meanStep x0 x2 xs0) (pertStep x0 x1 x3 x4 xs1) := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 hc0 hc1 x0 x1 x2 x3 x4 x5 x6 x7 x8 x9 xs0 xs1)]
  unfold kernelRun0_C
  dsimp only
  sl_unfold_words
  rw [View.canon_unit_zero hz]
  simp only [View.readCov_unit_zero (S := S256x2048) _ hz, View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

/-- The first point of a tile zeroes the mean accumulator and then adds its block product. -/
theorem mean_first (hc0 : cond0_0 i) (hc1 : ¬cond0_1 i) :
    sout0_A_0 c i a2 h2 a3 h3 a4 h4 a5 h5 a6 h6 a7 h7 a8 h8 a9 h9 a10 h10 a11 h11 a12 h12 a13 h13 a14 h14 hc0 hc1 x0 x1 x2 x3 x4 x5 x6 x7 x8 x9 = meanStep x0 x2 k0_pay3 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5 x6 x7 x8 x9)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

/-- The first point of a tile zeroes the perturbation accumulator and then adds its block product. -/
theorem pert_first (hc0 : cond0_0 i) (hc1 : ¬cond0_1 i) :
    sout0_A_1 c i a2 h2 a3 h3 a4 h4 a5 h5 a6 h6 a7 h7 a8 h8 a9 h9 a10 h10 a11 h11 a12 h12 a13 h13 a14 h14 hc0 hc1 x0 x1 x2 x3 x4 x5 x6 x7 x8 x9 = pertStep x0 x1 x3 x4 k0_pay4 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 hc1 x0 x1 x2 x3 x4 x5 x6 x7 x8 x9)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h6.read_unread, h7.read_unread,
    h8.read_unread, h9.read_unread, h10.read_unread, h11.read_unread, h13.read_unread, h14.read_unread,
    View.ld_unit_zero (S := S256x256) hz, View.ld_unit_zero (S := S256x2048) hz, View.ld_unit_zero (S := S1x2048) hz]

end Cert.Flipout.Kernel

end
-- ==== Proof.Spec.lean ====
/-
  The flipout Bayesian dense layer as ONE function of its ten argument arrays, entry by entry.

  For a batch row p and an output feature q the layer's value is

      ( Σ_k x(p,k) · w_loc(k,q)  +  r1(p,q) · Σ_k (x(p,k) · s(p,k)) · (softplus(w_std(k,q)) · eps_w(k,q)) )
    + ( b_loc(0,q)  +  r2(p,q) · (softplus(b_std(0,q)) · eps_b(q)) )

  on the extended reals, k ranging over the 2048 input features, the sign arrays s, r1, r2 read as the integers they hold,
  and softplus(w) = max(w, 0) + log(1 + exp(-|w - 0|)) in the form both programs spell it. Both programs compute
  exactly this expression; they differ only in how the two sums over k are grouped, and a sum in a commutative monoid does
  not depend on its grouping: a sum over the first 256·(n+1) features is the sum over the first 256·n plus the sum over
  the next 256 (sum_next_block), and the sum over all 2048 indices is the sum over the first 2048 naturals (sum_all).
-/
import Idealize.ShloMosaic.PureOps.Ideal.Laws
import Idealize.ShloMosaic.Lib.ValueIdx

noncomputable section

namespace Cert.Flipout

open Idealize.ShloMosaic Idealize.ShloMosaic.ValueIdx

/-- The arrays' shapes: batch by features, the square weight arrays, a bias row, the bias noise vector. -/
abbrev SB : Shape := ⟨2, ![4096, 2048]⟩
abbrev SW : Shape := ⟨2, ![2048, 2048]⟩
abbrev SR : Shape := ⟨2, ![1, 2048]⟩
abbrev SV : Shape := ⟨1, ![2048]⟩

/-- The zero word, as both programs print it. -/
abbrev zw : EReal := Ideal.ofBits .f32 0x00000000#32

theorem zw_eq : zw = 0 := Ideal.ofBits_zero_f32

/-- A sign word read as the integer it holds. -/
abbrev ofSign (b : BitVec 32) : EReal := ((b.toInt : ℝ) : EReal)

/-- softplus in the programs' own form: max(w, 0) + log(1 + exp(-|w - 0|)), with |d| = max(d, -d). -/
def softplus (w : EReal) : EReal :=
  max w zw + Ideal.log1p (Ideal.exp (-(max (w - zw) (-(w - zw)))))

/-- One term of the mean product: x(p,k) · w_loc(k,q). -/
def meanTerm (x : FVec Ideal SB .f32) (wloc : FVec Ideal SW .f32) (p : Fin 4096) (q : Fin 2048) (k : Fin 2048) : EReal :=
  x (ix2 p k) * wloc (ix2 k q)

/-- One term of the perturbation product: (x(p,k) · s(p,k)) · (softplus(w_std(k,q)) · eps_w(k,q)). -/
def pertTerm (x : FVec Ideal SB .f32) (s : IVec SB 32) (wstd epsw : FVec Ideal SW .f32) (p : Fin 4096) (q : Fin 2048)
    (k : Fin 2048) : EReal :=
  (x (ix2 p k) * ofSign (s (ix2 p k))) * (softplus (wstd (ix2 k q)) * epsw (ix2 k q))

/-- The bias part at (p, q): b_loc(0,q) + r2(p,q) · (softplus(b_std(0,q)) · eps_b(q)). -/
def biasPart (bloc bstd : FVec Ideal SR .f32) (epsb : FVec Ideal SV .f32) (r2 : IVec SB 32) (p : Fin 4096) (q : Fin 2048) :
    EReal :=
  bloc (ix2 0 q) + ofSign (r2 (ix2 p q)) * (softplus (bstd (ix2 0 q)) * epsb (ix1 q))

/-- The layer at (p, q), from the two finished sums. -/
def combine (mean pert : EReal) (r1 : IVec SB 32) (bias : EReal) (p : Fin 4096) (q : Fin 2048) : EReal :=
  (mean + ofSign (r1 (ix2 p q)) * pert) + bias

/-- THE LAYER, entry by entry. -/
def layer (x : FVec Ideal SB .f32) (wloc wstd : FVec Ideal SW .f32) (bloc bstd : FVec Ideal SR .f32)
    (epsw : FVec Ideal SW .f32) (epsb : FVec Ideal SV .f32) (s r1 r2 : IVec SB 32) : FVec Ideal SB .f32 :=
  fun j => combine (∑ k : Fin 2048, meanTerm x wloc (j 0) (j 1) k) (∑ k : Fin 2048, pertTerm x s wstd epsw (j 0) (j 1) k)
    r1 (biasPart bloc bstd epsb r2 (j 0) (j 1)) (j 0) (j 1)

/-! ## Sums over the features, grouped in blocks of 256 -/

/-- A function of the 2048 features extended by zero to all naturals. -/
def ext (f : Fin 2048 → EReal) (k : ℕ) : EReal := if h : k < 2048 then f ⟨k, h⟩ else 0

theorem ext_of_lt (f : Fin 2048 → EReal) (k : ℕ) (h : k < 2048) : ext f k = f ⟨k, h⟩ := dif_pos h

/-- The sum over all features is the sum over the first 2048 naturals. -/
theorem sum_all (f : Fin 2048 → EReal) : ∑ k ∈ Finset.range 2048, ext f k = ∑ k : Fin 2048, f k := by
  rw [Finset.sum_range]
  exact Finset.sum_congr rfl fun k _ => ext_of_lt f k.val k.isLt

/-- The first 256·(n+1) features are the first 256·n and the next 256. -/
theorem sum_next_block (f : Fin 2048 → EReal) (n : ℕ) :
    ∑ k ∈ Finset.range (256 * (n + 1)), ext f k
      = ∑ k ∈ Finset.range (256 * n), ext f k + ∑ k' : Fin 256, ext f (256 * n + k'.val) := by
  rw [Nat.mul_succ, Finset.sum_range_add]
  exact congrArg _ (Finset.sum_range fun k => ext f (256 * n + k))

/-- Nothing has been summed before the first block. -/
theorem sum_no_block (f : Fin 2048 → EReal) : ∑ k ∈ Finset.range (256 * 0), ext f k = 0 := by
  simp

end Cert.Flipout

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelPayload.lean ====
/-
  The block arithmetic of one grid point, entry by entry, on the extended reals.

  With floats read as extended reals a change of float format is the identity, an integer word converts to the integer it
  holds, and the kernel's test "d is not equal to itself" is never true, so its guarded softplus is the plain one. One point's
  work on a 256 x 2048 accumulator is then: the old entry plus the 256-term block product at that entry; and the finished
  output entry is (mean + r1 · perturbation) + (b_loc + r2 · (softplus(b_std) · eps_b)), the bias row broadcast down the tile.
-/
import proofs.«156300_j45114336477600_1_alg».proof.Proof.Gen.KernelIdeal.Skeleton
import proofs.«156300_j45114336477600_1_alg».proof.Proof.Spec
import proofs.«156300_j45114336477600_1_alg».proof.Proof.LibMatmul
import Idealize.ShloMosaic.Lib.Pipeline.Value

noncomputable section

namespace Cert.Flipout.Kernel

open Idealize.ShloMosaic Idealize.ShloMosaic.ValueIdx
open Cert.KernelIdeal Cert.KernelIdeal.Gen Cert.Flipout

/-- The kernel's block product contracts the left block's columns with the right block's rows: the plain product. -/
theorem dot_plain : dot_S256x256_S256x2048_S256x2048_1_0_0_1_n_n = DotDims.plain 256 256 2048 := rfl

/-- A value is never different from itself, so the guarded softplus is the plain one; and 0 - t is -t. -/
theorem softplus_guarded (w : EReal) :
    Scalar.select (Ideal.cmp .one (w - zw) (w - zw)) (w + zw)
        (max w zw + Ideal.log1p (Ideal.exp (zw - max (w - zw) (-(w - zw))))) = softplus w := by
  have hne : Ideal.cmp .one (w - zw) (w - zw) = 0#1 := by simp [Ideal.cmp]
  rw [hne, select_zero]
  unfold softplus
  rw [show zw - max (w - zw) (-(w - zw)) = -(max (w - zw) (-(w - zw))) from by rw [zw_eq, zero_sub]]

/-- A zeroed accumulator holds 0 everywhere. -/
theorem zeroMean_apply (y : S256x2048.Idx) : (k0_pay3 (F := Ideal)) y = 0 := by
  unfold k0_pay3
  rw [shapeCast_self]
  exact zw_eq

theorem zeroPert_apply (y : S256x2048.Idx) : (k0_pay4 (F := Ideal)) y = 0 := by
  unfold k0_pay4
  rw [shapeCast_self]
  exact zw_eq

/-- x · s at an entry of the block. -/
theorem signed_apply (x0 : Vec Ideal S256x256 .f32) (x1 : Vec Ideal S256x256 .i32) (y : S256x256.Idx) :
    k0_pay6 x0 x1 y = x0 y * ofSign (x1 y) := rfl

/-- softplus(w_std) · eps_w at an entry of the block. -/
theorem sample_apply (x3 x4 : Vec Ideal S256x2048 .f32) (y : S256x2048.Idx) :
    k0_pay7 x3 x4 y = softplus (x3 y) * x4 y :=
  congrArg (· * x4 y) (softplus_guarded (x3 y))

/-- The mean accumulator after a point: the old entry plus the block product x · w_loc at that entry. -/
theorem meanStep_apply (x0 : Vec Ideal S256x256 .f32) (x2 acc : Vec Ideal S256x2048 .f32) (a : Fin 256) (b : Fin 2048) :
    k0_pay8 x0 x2 acc (ix2 a b) = acc (ix2 a b) + ∑ k' : Fin 256, x0 (ix2 a k') * x2 (ix2 k' b) := by
  unfold k0_pay8
  rw [shapeCast_self]
  refine congrArg (acc (ix2 a b) + ·) ?_
  exact Cert.Matmul.matmul_plain_apply (M := 256) (K := 256) (N := 2048) none (k0_pay5 x0) (truncf .bf16 x2 bitsLt_bf16_f32) a b

/-- The perturbation accumulator after a point: the old entry plus the block product (x · s) · (softplus(w_std) · eps_w). -/
theorem pertStep_apply (x0 : Vec Ideal S256x256 .f32) (x1 : Vec Ideal S256x256 .i32) (x3 x4 acc : Vec Ideal S256x2048 .f32)
    (a : Fin 256) (b : Fin 2048) :
    k0_pay1 (k0_pay6 x0 x1) (k0_pay7 x3 x4) acc (ix2 a b)
      = acc (ix2 a b)
        + ∑ k' : Fin 256, (x0 (ix2 a k') * ofSign (x1 (ix2 a k'))) * (softplus (x3 (ix2 k' b)) * x4 (ix2 k' b)) := by
  unfold k0_pay1
  rw [shapeCast_self]
  refine congrArg (acc (ix2 a b) + ·) ?_
  refine (Cert.Matmul.matmul_plain_apply (M := 256) (K := 256) (N := 2048) none (k0_pay6 x0 x1) (k0_pay7 x3 x4) a b).trans ?_
  exact Finset.sum_congr rfl fun k' _ => by rw [signed_apply, sample_apply]

/-- A bias row broadcast down the tile: entry (a, b) is the row's entry b. -/
theorem row_down (v : Vec Ideal S1x2048 .f32) (a : Fin 256) (b : Fin 2048) :
    broadcastTo S256x2048 v broadcasts_S1x2048_S256x2048 (ix2 a b) = v (ix2 0 b) :=
  broadcastTo_apply v broadcasts_S1x2048_S256x2048 (ix2 a b) (ix2 0 b) fun d => by
    match d with
    | ⟨0, _⟩ => rfl
    | ⟨1, _⟩ => rfl

/-- THE FINISHED ENTRY the last point of a tile stores, over the two finished accumulators. -/
theorem out_apply (x5 x6 : Vec Ideal S256x2048 .i32) (x8 x9 x7 : Vec Ideal S1x2048 .f32) (mean pert : Vec Ideal S256x2048 .f32)
    (a : Fin 256) (b : Fin 2048) :
    k0_pay2 x5 x6 x8 x9 x7 mean pert (ix2 a b)
      = (mean (ix2 a b) + ofSign (x5 (ix2 a b)) * pert (ix2 a b))
        + (x7 (ix2 0 b) + ofSign (x6 (ix2 a b)) * (softplus (x8 (ix2 0 b)) * x9 (ix2 0 b))) := by
  unfold k0_pay2
  rw [shapeCast_self, shapeCast_self]
  refine congrArg ((mean (ix2 a b) + ofSign (x5 (ix2 a b)) * pert (ix2 a b)) + ·) ?_
  refine congrArg₂ (· + ·) (row_down x7 a b) ?_
  refine congrArg (ofSign (x6 (ix2 a b)) * ·) ?_
  exact (row_down _ a b).trans (congrArg (· * x9 (ix2 0 b)) (softplus_guarded (x8 (ix2 0 b))))

end Cert.Flipout.Kernel

end
-- ==== Proof.KernelBlocks.lean ====
/-
  Where each window's block sits in its array.

  The grid is 16 batch tiles by 8 feature tiles, walked feature tile fastest: point t is batch tile t / 8, feature tile
  t % 8. At that point x and s are read in the 256 x 256 block (t / 8, t % 8); the three weight arrays in the 256 x 2048 block
  of rows t % 8; r1, r2 and the output in the 256 x 2048 block of batch rows t / 8; the three bias rows whole. Entry (a, b)
  of a block is the array's entry at (256 · block row + a, block column offset + b). The bias noise reaches the kernel as a
  1 x 2048 row, the reshape of the 2048-vector: its entry (0, b) is the vector's entry b.
-/
import proofs.«156300_j45114336477600_1_alg».proof.Proof.Gen.KernelIdeal.Value
import proofs.«156300_j45114336477600_1_alg».proof.Proof.Spec
import Idealize.ShloMosaic.Lib.Pipeline.Value
import Idealize.ShloMosaic.Lib.StableHlo.Run

noncomputable section

namespace Cert.Flipout.Kernel

open Idealize.ShloMosaic Idealize.ShloMosaic.TcCoe Idealize.SL.Sem Idealize.ShloMosaic.ValueIdx
open Cert.KernelIdeal Cert.KernelIdeal.Gen Cert.Flipout

variable (m : (ℓ : Loc nD τ sig) → Buf (Elt Ideal) ℓ)

/-- Row a of batch tile n (of 4096 rows) and feature a of feature tile n (of 2048 features), kept in range. -/
def rowIx (n a : ℕ) : Fin 4096 := ⟨(256 * n + a) % 4096, Nat.mod_lt _ (by decide)⟩
def colIx (n a : ℕ) : Fin 2048 := ⟨(256 * n + a) % 2048, Nat.mod_lt _ (by decide)⟩

/-- The ten argument arrays. -/
abbrev xA (c : Dev nD) : FVec Ideal SB .f32 := m ((c : Thread nD τ).loc main_arg0)
abbrev wlocA (c : Dev nD) : FVec Ideal SW .f32 := m ((c : Thread nD τ).loc main_arg1)
abbrev wstdA (c : Dev nD) : FVec Ideal SW .f32 := m ((c : Thread nD τ).loc main_arg2)
abbrev blocA (c : Dev nD) : FVec Ideal SR .f32 := m ((c : Thread nD τ).loc main_arg3)
abbrev bstdA (c : Dev nD) : FVec Ideal SR .f32 := m ((c : Thread nD τ).loc main_arg4)
abbrev epswA (c : Dev nD) : FVec Ideal SW .f32 := m ((c : Thread nD τ).loc main_arg5)
abbrev epsbA (c : Dev nD) : FVec Ideal SV .f32 := m ((c : Thread nD τ).loc main_arg6)
abbrev sA (c : Dev nD) : IVec SB 32 := m ((c : Thread nD τ).loc main_arg7)
abbrev r1A (c : Dev nD) : IVec SB 32 := m ((c : Thread nD τ).loc main_arg8)
abbrev r2A (c : Dev nD) : IVec SB 32 := m ((c : Thread nD τ).loc main_arg9)

/-- The block each window reads at point t, decided over the 128 points. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val % 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val / 8 ∧ win0_10.index t (1 : Fin 2) = 0 :=
  (by decide +kernel : ∀ t : Fin grid0.N, _)

/-- x's block: batch tile t / 8, feature tile t % 8. -/
theorem xblk_apply (c : Dev nD) (t : Fin cfg0.N) (a : Fin 256) (b : Fin 256) :
    (iblk m c 0 t : Vec Ideal S256x256 .f32) (ix2 a b) = xA m c (ix2 (rowIx (t.val / 8) a.val) (colIx (t.val % 8) b.val)) := by
  have ht : t.val < 128 := lt_of_lt_of_eq t.isLt N_0
  obtain ⟨e0, e1, -⟩ := idx_facts t
  show V m c main_arg0 (((cfg0.win 0).blk t).view.emb (ix2 a b)) = _
  rw [V_main_arg0]
  refine congrArg _ (funext fun d => Fin.ext ?_)
  match d with
  | ⟨0, _⟩ => show win0_0.index t (0 : Fin 2) * 256 + 1 * a.val = (256 * (t.val / 8) + a.val) % 4096; rw [e0]; omega
  | ⟨1, _⟩ => show win0_0.index t (1 : Fin 2) * 256 + 1 * b.val = (256 * (t.val % 8) + b.val) % 2048; rw [e1]; omega

/-- s's block: the same place as x's. -/
theorem sblk_apply (c : Dev nD) (t : Fin cfg0.N) (a : Fin 256) (b : Fin 256) :
    (iblk m c 1 t : Vec Ideal S256x256 .i32) (ix2 a b) = sA m c (ix2 (rowIx (t.val / 8) a.val) (colIx (t.val % 8) b.val)) := by
  have ht : t.val < 128 := lt_of_lt_of_eq t.isLt N_0
  obtain ⟨-, -, e0, e1, -⟩ := idx_facts t
  show V m c main_arg7 (((cfg0.win 1).blk t).view.emb (ix2 a b)) = _
  rw [V_main_arg7]
  refine congrArg _ (funext fun d => Fin.ext ?_)
  match d with
  | ⟨0, _⟩ => show win0_1.index t (0 : Fin 2) * 256 + 1 * a.val = (256 * (t.val / 8) + a.val) % 4096; rw [e0]; omega
  | ⟨1, _⟩ => show win0_1.index t (1 : Fin 2) * 256 + 1 * b.val = (256 * (t.val % 8) + b.val) % 2048; rw [e1]; omega

/-- w_loc's block: the rows of feature tile t % 8, every output feature. -/
theorem wlocblk_apply (c : Dev nD) (t : Fin cfg0.N) (a : Fin 256) (b : Fin 2048) :
    (iblk m c 2 t : Vec Ideal S256x2048 .f32) (ix2 a b) = wlocA m c (ix2 (colIx (t.val % 8) a.val) b) := by
  have ht : t.val < 128 := lt_of_lt_of_eq t.isLt N_0
  obtain ⟨-, -, -, -, e0, e1, -⟩ := idx_facts t
  show V m c main_arg1 (((cfg0.win 2).blk t).view.emb (ix2 a b)) = _
  rw [V_main_arg1]
  refine congrArg _ (funext fun d => Fin.ext ?_)
  match d with
  | ⟨0, _⟩ => show win0_2.index t (0 : Fin 2) * 256 + 1 * a.val = (256 * (t.val % 8) + a.val) % 2048; rw [e0]; omega
  | ⟨1, _⟩ => show win0_2.index t (1 : Fin 2) * 2048 + 1 * b.val = b.val; rw [e1]; omega

/-- w_std's block: the same place as w_loc's. -/
theorem wstdblk_apply (c : Dev nD) (t : Fin cfg0.N) (a : Fin 256) (b : Fin 2048) :
    (iblk m c 3 t : Vec Ideal S256x2048 .f32) (ix2 a b) = wstdA m c (ix2 (colIx (t.val % 8) a.val) b) := by
  have ht : t.val < 128 := lt_of_lt_of_eq t.isLt N_0
  obtain ⟨-, -, -, -, -, -, e0, e1, -⟩ := idx_facts t
  show V m c main_arg2 (((cfg0.win 3).blk t).view.emb (ix2 a b)) = _
  rw [V_main_arg2]
  refine congrArg _ (funext fun d => Fin.ext ?_)
  match d with
  | ⟨0, _⟩ => show win0_3.index t (0 : Fin 2) * 256 + 1 * a.val = (256 * (t.val % 8) + a.val) % 2048; rw [e0]; omega
  | ⟨1, _⟩ => show win0_3.index t (1 : Fin 2) * 2048 + 1 * b.val = b.val; rw [e1]; omega

/-- eps_w's block: the same place as w_loc's. -/
theorem epswblk_apply (c : Dev nD) (t : Fin cfg0.N) (a : Fin 256) (b : Fin 2048) :
    (iblk m c 4 t : Vec Ideal S256x2048 .f32) (ix2 a b) = epswA m c (ix2 (colIx (t.val % 8) a.val) b) := by
  have ht : t.val < 128 := lt_of_lt_of_eq t.isLt N_0
  obtain ⟨-, -, -, -, -, -, -, -, e0, e1, -⟩ := idx_facts t
  show V m c main_arg5 (((cfg0.win 4).blk t).view.emb (ix2 a b)) = _
  rw [V_main_arg5]
  refine congrArg _ (funext fun d => Fin.ext ?_)
  match d with
  | ⟨0, _⟩ => show win0_4.index t (0 : Fin 2) * 256 + 1 * a.val = (256 * (t.val % 8) + a.val) % 2048; rw [e0]; omega
  | ⟨1, _⟩ => show win0_4.index t (1 : Fin 2) * 2048 + 1 * b.val = b.val; rw [e1]; omega

/-- r1's block: the rows of batch tile t / 8, every output feature. -/
theorem r1blk_apply (c : Dev nD) (t : Fin cfg0.N) (a : Fin 256) (b : Fin 2048) :
    (iblk m c 5 t : Vec Ideal S256x2048 .i32) (ix2 a b) = r1A m c (ix2 (rowIx (t.val / 8) a.val) b) := by
  have ht : t.val < 128 := lt_of_lt_of_eq t.isLt N_0
  obtain ⟨-, -, -, -, -, -, -, -, -, -, e0, e1, -⟩ := idx_facts t
  show V m c main_arg8 (((cfg0.win 5).blk t).view.emb (ix2 a b)) = _
  rw [V_main_arg8]
  refine congrArg _ (funext fun d => Fin.ext ?_)
  match d with
  | ⟨0, _⟩ => show win0_5.index t (0 : Fin 2) * 256 + 1 * a.val = (256 * (t.val / 8) + a.val) % 4096; rw [e0]; omega
  | ⟨1, _⟩ => show win0_5.index t (1 : Fin 2) * 2048 + 1 * b.val = b.val; rw [e1]; omega

/-- r2's block: the same place as r1's. -/
theorem r2blk_apply (c : Dev nD) (t : Fin cfg0.N) (a : Fin 256) (b : Fin 2048) :
    (iblk m c 6 t : Vec Ideal S256x2048 .i32) (ix2 a b) = r2A m c (ix2 (rowIx (t.val / 8) a.val) b) := by
  have ht : t.val < 128 := lt_of_lt_of_eq t.isLt N_0
  obtain ⟨-, -, -, -, -, -, -, -, -, -, -, -, e0, e1, -⟩ := idx_facts t
  show V m c main_arg9 (((cfg0.win 6).blk t).view.emb (ix2 a b)) = _
  rw [V_main_arg9]
  refine congrArg _ (funext fun d => Fin.ext ?_)
  match d with
  | ⟨0, _⟩ => show win0_6.index t (0 : Fin 2) * 256 + 1 * a.val = (256 * (t.val / 8) + a.val) % 4096; rw [e0]; omega
  | ⟨1, _⟩ => show win0_6.index t (1 : Fin 2) * 2048 + 1 * b.val = b.val; rw [e1]; omega

/-- b_loc's row, whole. -/
theorem blocblk_apply (c : Dev nD) (t : Fin cfg0.N) (a : Fin 1) (b : Fin 2048) :
    (iblk m c 7 t : Vec Ideal S1x2048 .f32) (ix2 a b) = blocA m c (ix2 a b) := by
  obtain ⟨-, -, -, -, -, -, -, -, -, -, -, -, -, -, e0, e1, -⟩ := idx_facts t
  show V m c main_arg3 (((cfg0.win 7).blk t).view.emb (ix2 a b)) = _
  rw [V_main_arg3]
  refine congrArg _ (funext fun d => Fin.ext ?_)
  match d with
  | ⟨0, _⟩ => show win0_7.index t (0 : Fin 2) * 1 + 1 * a.val = a.val; rw [e0]; omega
  | ⟨1, _⟩ => show win0_7.index t (1 : Fin 2) * 2048 + 1 * b.val = b.val; rw [e1]; omega

/-- b_std's row, whole. -/
theorem bstdblk_apply (c : Dev nD) (t : Fin cfg0.N) (a : Fin 1) (b : Fin 2048) :
    (iblk m c 8 t : Vec Ideal S1x2048 .f32) (ix2 a b) = bstdA m c (ix2 a b) := by
  obtain ⟨-, -, -, -, -, -, -, -, -, -, -, -, -, -, -, -, e0, e1, -⟩ := idx_facts t
  show V m c main_arg4 (((cfg0.win 8).blk t).view.emb (ix2 a b)) = _
  rw [V_main_arg4]
  refine congrArg _ (funext fun d => Fin.ext ?_)
  match d with
  | ⟨0, _⟩ => show win0_8.index t (0 : Fin 2) * 1 + 1 * a.val = a.val; rw [e0]; omega
  | ⟨1, _⟩ => show win0_8.index t (1 : Fin 2) * 2048 + 1 * b.val = b.val; rw [e1]; omega

/-- The bias noise as the kernel receives it: the 2048-vector reshaped to one row. -/
theorem epsRow_eq (c : Dev nD) :
    (V m c main_v0 : S1x2048.Idx → EReal) = shapeCast S1x2048 (epsbA m c) shapeCasts_S2048_S1x2048 := by
  dsimp only [V, hostOps0]
  after_results
  rfl

/-- eps_b's row, whole: entry (0, b) is the vector's entry b. -/
theorem epsblk_apply (c : Dev nD) (t : Fin cfg0.N) (a : Fin 1) (b : Fin 2048) :
    (iblk m c 9 t : Vec Ideal S1x2048 .f32) (ix2 a b) = epsbA m c (ix1 b) := by
  obtain ⟨-, -, -, -, -, -, -, -, -, -, -, -, -, -, -, -, -, -, e0, e1, -⟩ := idx_facts t
  show V m c main_v0 (((cfg0.win 9).blk t).view.emb (ix2 a b)) = _
  rw [epsRow_eq]
  refine shapeCast_apply _ _ _ (ix1 b) ?_
  rw [Shape.rowMajor_val_one, Shape.rowMajor_val_two]
  show b.val = (win0_9.index t (0 : Fin 2) * 1 + 1 * a.val) * 2048 + (win0_9.index t (1 : Fin 2) * 2048 + 1 * b.val)
  rw [e0, e1]
  have := a.isLt
  omega

end Cert.Flipout.Kernel

end
-- ==== Proof.Sums.lean ====
/-
  Eight blocks of 256 features make up all 2048: the sum over the blocks of the sums inside the blocks is the sum over every
  feature, by adding one block at a time.
-/
import proofs.«156300_j45114336477600_1_alg».proof.Proof.Spec

noncomputable section

namespace Cert.Flipout

/-- The first n blocks together are the first 256·n features. -/
theorem sum_blocks (f : Fin 2048 → EReal) (n : ℕ) :
    ∑ s ∈ Finset.range n, ∑ k' : Fin 256, ext f (256 * s + k'.val) = ∑ k ∈ Finset.range (256 * n), ext f k := by
  induction n with
  | zero => simp
  | succ n ih => rw [Finset.sum_range_succ, ih, sum_next_block]

/-- All eight blocks together are every feature. -/
theorem sum_eight_blocks (f : Fin 2048 → EReal) :
    ∑ s ∈ Finset.range 8, ∑ k' : Fin 256, ext f (256 * s + k'.val) = ∑ k : Fin 2048, f k := by
  rw [sum_blocks, ← sum_all]

end Cert.Flipout

end
-- ==== Proof.KernelAcc.lean ====
/-
  The two accumulators after the last point of a batch tile are the full products.

  Within batch tile q the eight points 8q, 8q+1, ..., 8q+7 visit the eight feature tiles in order. The first zeroes an
  accumulator and adds its block of 256 terms, each later one adds its own block. So after point 8q+j an accumulator
  entry (a, b) holds 0 plus the blocks 0..j of the terms of batch row 256q + a and output feature b, and after the last
  point all eight blocks: every one of the 2048 terms, whose sum does not depend on the grouping. The finished output
  entry the last point stores is then the layer's entry at (256q + a, b).
-/
import proofs.«156300_j45114336477600_1_alg».proof.Proof.KernelPieces
import proofs.«156300_j45114336477600_1_alg».proof.Proof.KernelPayload
import proofs.«156300_j45114336477600_1_alg».proof.Proof.KernelBlocks
import proofs.«156300_j45114336477600_1_alg».proof.Proof.Sums

noncomputable section

namespace Cert.Flipout.Kernel

open Idealize.ShloMosaic Idealize.ShloMosaic.TcCoe Idealize.SL.Sem Idealize.ShloMosaic.ValueIdx
open Cert.KernelIdeal Cert.KernelIdeal.Gen Cert.KernelIdeal.Value Cert.Flipout

variable (m : (ℓ : Loc nD τ sig) → Buf (Elt Ideal) ℓ)

/-- The 2048 mean terms (resp. perturbation terms) of the batch row and output feature that entry y of batch tile n / 8 is. -/
def meanRow (c : Dev nD) (n : ℕ) (y : S256x2048.Idx) : Fin 2048 → EReal :=
  meanTerm (xA m c) (wlocA m c) (rowIx (n / 8) (y 0).val) (y 1)

def pertRow (c : Dev nD) (n : ℕ) (y : S256x2048.Idx) : Fin 2048 → EReal :=
  pertTerm (xA m c) (sA m c) (wstdA m c) (epswA m c) (rowIx (n / 8) (y 0).val) (y 1)

/-- What point n adds to an accumulator entry: the 256 terms of feature tile n % 8. -/
def meanAdd (c : Dev nD) (n : ℕ) (y : S256x2048.Idx) : EReal :=
  ∑ k' : Fin 256, ext (meanRow m c n y) (256 * (n % 8) + k'.val)

def pertAdd (c : Dev nD) (n : ℕ) (y : S256x2048.Idx) : EReal :=
  ∑ k' : Fin 256, ext (pertRow m c n y) (256 * (n % 8) + k'.val)

/-- The blocks the two products read at point t, at their literal types. -/
abbrev xblk (c : Dev nD) (t : Fin cfg0.N) : Vec Ideal S256x256 .f32 := iblk m c 0 t
abbrev sblk (c : Dev nD) (t : Fin cfg0.N) : Vec Ideal S256x256 .i32 := iblk m c 1 t
abbrev wlocblk (c : Dev nD) (t : Fin cfg0.N) : Vec Ideal S256x2048 .f32 := iblk m c 2 t
abbrev wstdblk (c : Dev nD) (t : Fin cfg0.N) : Vec Ideal S256x2048 .f32 := iblk m c 3 t
abbrev epswblk (c : Dev nD) (t : Fin cfg0.N) : Vec Ideal S256x2048 .f32 := iblk m c 4 t

/-- Feature k' of feature tile j, for j < 8, is feature 256 j + k'. -/
theorem colIx_eq (j : ℕ) (hj : j < 8) (k' : Fin 256) (h : 256 * j + k'.val < 2048) :
    colIx j k'.val = ⟨256 * j + k'.val, h⟩ := Fin.ext (Nat.mod_eq_of_lt h)

/-- The block product x · w_loc at point t is the 256 mean terms of its feature tile. -/
theorem meanBlock_eq (c : Dev nD) (t : Fin cfg0.N) (a : Fin 256) (b : Fin 2048) :
    ∑ k' : Fin 256, xblk m c t (ix2 a k') * wlocblk m c t (ix2 k' b) = meanAdd m c t.val (ix2 a b) := by
  refine Finset.sum_congr rfl fun k' _ => ?_
  have hk : 256 * (t.val % 8) + k'.val < 2048 := by have := k'.isLt; omega
  have e0 : xblk m c t (ix2 a k') = _ := xblk_apply m c t a k'
  have e2 : wlocblk m c t (ix2 k' b) = _ := wlocblk_apply m c t k' b
  rw [e0, e2, ext_of_lt _ _ hk, colIx_eq (t.val % 8) (Nat.mod_lt _ (by decide)) k' hk]
  rfl

/-- The block product (x · s) · (softplus(w_std) · eps_w) at point t is the 256 perturbation terms of its feature tile. -/
theorem pertBlock_eq (c : Dev nD) (t : Fin cfg0.N) (a : Fin 256) (b : Fin 2048) :
    ∑ k' : Fin 256, (xblk m c t (ix2 a k') * ofSign (sblk m c t (ix2 a k')))
        * (softplus (wstdblk m c t (ix2 k' b)) * epswblk m c t (ix2 k' b))
      = pertAdd m c t.val (ix2 a b) := by
  refine Finset.sum_congr rfl fun k' _ => ?_
  have hk : 256 * (t.val % 8) + k'.val < 2048 := by have := k'.isLt; omega
  have e0 : xblk m c t (ix2 a k') = _ := xblk_apply m c t a k'
  have e1 : sblk m c t (ix2 a k') = _ := sblk_apply m c t a k'
  have e3 : wstdblk m c t (ix2 k' b) = _ := wstdblk_apply m c t k' b
  have e4 : epswblk m c t (ix2 k' b) = _ := epswblk_apply m c t k' b
  rw [e0, e1, e3, e4, ext_of_lt _ _ hk, colIx_eq (t.val % 8) (Nat.mod_lt _ (by decide)) k' hk]
  rfl

/-! ## One point's effect on an accumulator entry -/

/-- The first point of a tile leaves 0 plus its block in the mean accumulator. -/
theorem mean_reset (c : Dev nD) (t : Fin cfg0.N) (h0 : t.val % 8 = 0) (acc : Vec Ideal S256x2048 .f32) (y : S256x2048.Idx) :
    scAt0_0 m c t.val t.isLt acc y = 0 + meanAdd m c t.val y := by
  have h1 : ¬t.val % 8 = 7 := by omega
  obtain ⟨a, b, rfl⟩ : ∃ (a : Fin 256) (b : Fin 2048), y = ix2 a b := ⟨y 0, y 1, eq_ix2 y⟩
  unfold scAt0_0
  rw [dif_pos h0, dif_neg h1]
  refine (congrFun (mean_first (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (iblk m c 8 t) (iblk m c 9 t) ((hcond0_0 t).mpr h0) (fun h => h1 ((hcond0_1 t).mp h))) (ix2 a b)).trans ?_
  refine (meanStep_apply (iblk m c 0 t) (iblk m c 2 t) (k0_pay3 (F := Ideal)) a b).trans ?_
  rw [zeroMean_apply]
  exact congrArg (0 + ·) (meanBlock_eq m c t a b)

/-- Every later point of a tile adds its block to the mean accumulator. -/
theorem mean_add (c : Dev nD) (t : Fin cfg0.N) (h0 : ¬t.val % 8 = 0) (acc : Vec Ideal S256x2048 .f32) (y : S256x2048.Idx) :
    scAt0_0 m c t.val t.isLt acc y = acc y + meanAdd m c t.val y := by
  obtain ⟨a, b, rfl⟩ : ∃ (a : Fin 256) (b : Fin 2048), y = ix2 a b := ⟨y 0, y 1, eq_ix2 y⟩
  unfold scAt0_0
  rw [dif_neg h0]
  by_cases h1 : t.val % 8 = 7
  · rw [dif_pos h1]
    refine (congrFun (mean_last (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) acc (outsAt0 m c (t.val - 1) (Nat.lt_of_le_of_lt (Nat.sub_le _ _) t.isLt)).2.2
      (fun h => h0 ((hcond0_0 t).mp h)) ((hcond0_1 t).mpr h1)) (ix2 a b)).trans ?_
    refine (meanStep_apply (iblk m c 0 t) (iblk m c 2 t) acc a b).trans ?_
    exact congrArg (acc (ix2 a b) + ·) (meanBlock_eq m c t a b)
  · rw [dif_neg h1]
    refine (congrFun (mean_middle (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) acc (outsAt0 m c (t.val - 1) (Nat.lt_of_le_of_lt (Nat.sub_le _ _) t.isLt)).2.2
      (fun h => h0 ((hcond0_0 t).mp h)) (fun h => h1 ((hcond0_1 t).mp h))) (ix2 a b)).trans ?_
    refine (meanStep_apply (iblk m c 0 t) (iblk m c 2 t) acc a b).trans ?_
    exact congrArg (acc (ix2 a b) + ·) (meanBlock_eq m c t a b)

/-- The first point of a tile leaves 0 plus its block in the perturbation accumulator. -/
theorem pert_reset (c : Dev nD) (t : Fin cfg0.N) (h0 : t.val % 8 = 0) (acc : Vec Ideal S256x2048 .f32) (y : S256x2048.Idx) :
    scAt0_1 m c t.val t.isLt acc y = 0 + pertAdd m c t.val y := by
  have h1 : ¬t.val % 8 = 7 := by omega
  obtain ⟨a, b, rfl⟩ : ∃ (a : Fin 256) (b : Fin 2048), y = ix2 a b := ⟨y 0, y 1, eq_ix2 y⟩
  unfold scAt0_1
  rw [dif_pos h0, dif_neg h1]
  refine (congrFun (pert_first (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (iblk m c 8 t) (iblk m c 9 t) ((hcond0_0 t).mpr h0) (fun h => h1 ((hcond0_1 t).mp h))) (ix2 a b)).trans ?_
  refine (pertStep_apply (iblk m c 0 t) (iblk m c 1 t) (iblk m c 3 t) (iblk m c 4 t) (k0_pay4 (F := Ideal)) a b).trans ?_
  rw [zeroPert_apply]
  exact congrArg (0 + ·) (pertBlock_eq m c t a b)

/-- Every later point of a tile adds its block to the perturbation accumulator. -/
theorem pert_add (c : Dev nD) (t : Fin cfg0.N) (h0 : ¬t.val % 8 = 0) (acc : Vec Ideal S256x2048 .f32) (y : S256x2048.Idx) :
    scAt0_1 m c t.val t.isLt acc y = acc y + pertAdd m c t.val y := by
  obtain ⟨a, b, rfl⟩ : ∃ (a : Fin 256) (b : Fin 2048), y = ix2 a b := ⟨y 0, y 1, eq_ix2 y⟩
  unfold scAt0_1
  rw [dif_neg h0]
  by_cases h1 : t.val % 8 = 7
  · rw [dif_pos h1]
    refine (congrFun (pert_last (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) (outsAt0 m c (t.val - 1) (Nat.lt_of_le_of_lt (Nat.sub_le _ _) t.isLt)).2.1 acc
      (fun h => h0 ((hcond0_0 t).mp h)) ((hcond0_1 t).mpr h1)) (ix2 a b)).trans ?_
    refine (pertStep_apply (iblk m c 0 t) (iblk m c 1 t) (iblk m c 3 t) (iblk m c 4 t) acc a b).trans ?_
    exact congrArg (acc (ix2 a b) + ·) (pertBlock_eq m c t a b)
  · rw [dif_neg h1]
    refine (congrFun (pert_middle (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) (outsAt0 m c (t.val - 1) (Nat.lt_of_le_of_lt (Nat.sub_le _ _) t.isLt)).2.1 acc
      (fun h => h0 ((hcond0_0 t).mp h)) (fun h => h1 ((hcond0_1 t).mp h))) (ix2 a b)).trans ?_
    refine (pertStep_apply (iblk m c 0 t) (iblk m c 1 t) (iblk m c 3 t) (iblk m c 4 t) acc a b).trans ?_
    exact congrArg (acc (ix2 a b) + ·) (pertBlock_eq m c t a b)

/-! ## The accumulators after any point, and after the last point of a tile -/

/-- The mean accumulator after point t: 0 plus the blocks of the points of t's tile up to t. -/
theorem mean_after (c : Dev nD) (t : Fin cfg0.N) (y : S256x2048.Idx) :
    (outsAt0 m c t.val t.isLt).2.1 y
      = 0 + ∑ s ∈ Finset.range (t.val % 8 + 1), meanAdd m c (8 * (t.val / 8) + s) y := by
  rw [soutsAt0_0_eq m c t]
  exact Pipeline.accAt_add_apply (fun n h => scAt0_0 m c n h (VS0_0.read (Elt Ideal) VS0_0.junk)) (scAt0_0 m c)
    (fun _ => 0) (meanAdd m c) (8 * (t.val / 8)) 7
    (fun h i => mean_reset m c ⟨8 * (t.val / 8), h⟩ (Nat.mul_mod_right 8 _) _ i)
    (fun n h acc i h1 h2 => mean_add m c ⟨n, h⟩ (by show ¬n % 8 = 0; omega) acc i)
    (t.val % 8) (by omega) _ y

/-- The perturbation accumulator after point t: 0 plus the blocks of the points of t's tile up to t. -/
theorem pert_after (c : Dev nD) (t : Fin cfg0.N) (y : S256x2048.Idx) :
    (outsAt0 m c t.val t.isLt).2.2 y
      = 0 + ∑ s ∈ Finset.range (t.val % 8 + 1), pertAdd m c (8 * (t.val / 8) + s) y := by
  rw [soutsAt0_1_eq m c t]
  exact Pipeline.accAt_add_apply (fun n h => scAt0_1 m c n h (VS0_1.read (Elt Ideal) VS0_1.junk)) (scAt0_1 m c)
    (fun _ => 0) (pertAdd m c) (8 * (t.val / 8)) 7
    (fun h i => pert_reset m c ⟨8 * (t.val / 8), h⟩ (Nat.mul_mod_right 8 _) _ i)
    (fun n h acc i h1 h2 => pert_add m c ⟨n, h⟩ (by show ¬n % 8 = 0; omega) acc i)
    (t.val % 8) (by omega) _ y

/-- Point 8q + s, s < 8, adds block s of the terms of batch tile q. -/
theorem meanAdd_tile (c : Dev nD) (q s : ℕ) (hs : s < 8) (y : S256x2048.Idx) :
    meanAdd m c (8 * q + s) y = ∑ k' : Fin 256, ext (meanRow m c (8 * q) y) (256 * s + k'.val) := by
  unfold meanAdd meanRow
  rw [show (8 * q + s) % 8 = s by omega, show (8 * q + s) / 8 = q by omega, show 8 * q / 8 = q by omega]

theorem pertAdd_tile (c : Dev nD) (q s : ℕ) (hs : s < 8) (y : S256x2048.Idx) :
    pertAdd m c (8 * q + s) y = ∑ k' : Fin 256, ext (pertRow m c (8 * q) y) (256 * s + k'.val) := by
  unfold pertAdd pertRow
  rw [show (8 * q + s) % 8 = s by omega, show (8 * q + s) / 8 = q by omega, show 8 * q / 8 = q by omega]

/-- AFTER THE LAST POINT OF A TILE the mean accumulator holds the full product x · w_loc. -/
theorem mean_done (c : Dev nD) (t : Fin cfg0.N) (h7 : t.val % 8 = 7) (a : Fin 256) (b : Fin 2048) :
    (outsAt0 m c t.val t.isLt).2.1 (ix2 a b)
      = ∑ k : Fin 2048, meanTerm (xA m c) (wlocA m c) (rowIx (t.val / 8) a.val) b k := by
  rw [mean_after, h7, zero_add,
    Finset.sum_congr rfl (fun s hs => meanAdd_tile m c (t.val / 8) s (Finset.mem_range.mp hs) (ix2 a b)), sum_eight_blocks]
  unfold meanRow
  rw [show 8 * (t.val / 8) / 8 = t.val / 8 by omega]

/-- AFTER THE LAST POINT OF A TILE the perturbation accumulator holds the full product (x · s) · (softplus(w_std) · eps_w). -/
theorem pert_done (c : Dev nD) (t : Fin cfg0.N) (h7 : t.val % 8 = 7) (a : Fin 256) (b : Fin 2048) :
    (outsAt0 m c t.val t.isLt).2.2 (ix2 a b)
      = ∑ k : Fin 2048, pertTerm (xA m c) (sA m c) (wstdA m c) (epswA m c) (rowIx (t.val / 8) a.val) b k := by
  rw [pert_after, h7, zero_add,
    Finset.sum_congr rfl (fun s hs => pertAdd_tile m c (t.val / 8) s (Finset.mem_range.mp hs) (ix2 a b)), sum_eight_blocks]
  unfold pertRow
  rw [show 8 * (t.val / 8) / 8 = t.val / 8 by omega]

end Cert.Flipout.Kernel

end
-- ==== Proof.KernelValue.lean ====
/-
  The kernel's result array is the layer of its argument arrays.

  Only the last point of each batch tile writes the output block back. What it writes is the finished expression over the
  two finished accumulators and the tile's blocks of r1, r2 and the bias rows, which entry by entry is the layer at batch row
  256·(t / 8) + a and output feature b: block (t / 8, 0) of the layer. The sixteen such blocks, one per batch tile, cover
  the 4096 x 2048 output array, so after the run the array holds the layer everywhere.
-/
import proofs.«156300_j45114336477600_1_alg».proof.Proof.KernelAcc

noncomputable section

namespace Cert.Flipout.Kernel

open Idealize.ShloMosaic Idealize.ShloMosaic.TcCoe Idealize.SL.Sem Idealize.ShloMosaic.ValueIdx
open Cert.KernelIdeal Cert.KernelIdeal.Gen Cert.KernelIdeal.Value Cert.Flipout

variable (m : (ℓ : Loc nD τ sig) → Buf (Elt Ideal) ℓ) (ρ : Dev nD → PrngReg)

/-- The layer of the argument arrays, as contents of the result array. -/
abbrev result (c : Dev nD) : Buf (Elt Ideal) ((c : Thread nD τ).loc main_v1) :=
  layer (xA m c) (wlocA m c) (wstdA m c) (blocA m c) (bstdA m c) (epswA m c) (epsbA m c) (sA m c) (r1A m c) (r2A m c)

/-- At the last point of a tile the output block is the finished expression over the accumulators as that point leaves them. -/
theorem out_done (c : Dev nD) (t : Fin cfg0.N) (h7 : t.val % 8 = 7) :
    (outsAt0 m c t.val t.isLt).1
      = k0_pay2 (iblk m c 5 t) (iblk m c 6 t) (iblk m c 8 t) (iblk m c 9 t) (iblk m c 7 t)
          (outsAt0 m c t.val t.isLt).2.1 (outsAt0 m c t.val t.isLt).2.2 := by
  have h0 : ¬t.val % 8 = 0 := by omega
  rw [outsAt0_C m c t h0 h7]
  dsimp only
  refine (out_last (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (iblk m c 8 t) (iblk m c 9 t) (outsAt0 m c (t.val - 1) (Nat.lt_of_le_of_lt (Nat.sub_le _ _) t.isLt)).2.1
    (outsAt0 m c (t.val - 1) (Nat.lt_of_le_of_lt (Nat.sub_le _ _) t.isLt)).2.2
    (fun h => h0 ((hcond0_0 t).mp h)) ((hcond0_1 t).mpr h7)).trans ?_
  refine congrArg₂ (k0_pay2 (iblk m c 5 t) (iblk m c 6 t) (iblk m c 8 t) (iblk m c 9 t) (iblk m c 7 t)) ?_ ?_
  · exact (mean_last (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) (outsAt0 m c (t.val - 1) (Nat.lt_of_le_of_lt (Nat.sub_le _ _) t.isLt)).2.1
      (outsAt0 m c (t.val - 1) (Nat.lt_of_le_of_lt (Nat.sub_le _ _) t.isLt)).2.2
      (fun h => h0 ((hcond0_0 t).mp h)) ((hcond0_1 t).mpr h7)).symm
  · exact (pert_last (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) (outsAt0 m c (t.val - 1) (Nat.lt_of_le_of_lt (Nat.sub_le _ _) t.isLt)).2.1
      (outsAt0 m c (t.val - 1) (Nat.lt_of_le_of_lt (Nat.sub_le _ _) t.isLt)).2.2
      (fun h => h0 ((hcond0_0 t).mp h)) ((hcond0_1 t).mpr h7)).symm

/-- Entry (a, b) of the output block of point t is entry (256·(t / 8) + a, b) of the output array. -/
theorem outblk_index (t : Fin cfg0.N) (a : Fin 256) (b : Fin 2048) :
    ((cfg0.win 10).blk t).view.emb (ix2 a b) = ix2 (rowIx (t.val / 8) a.val) b := by
  have ht : t.val < 128 := lt_of_lt_of_eq t.isLt N_0
  obtain ⟨-, -, -, -, -, -, -, -, -, -, -, -, -, -, -, -, -, -, -, -, e0, e1⟩ := idx_facts t
  refine funext fun d => Fin.ext ?_
  match d with
  | ⟨0, _⟩ => show win0_10.index t (0 : Fin 2) * 256 + 1 * a.val = (256 * (t.val / 8) + a.val) % 4096; rw [e0]; omega
  | ⟨1, _⟩ => show win0_10.index t (1 : Fin 2) * 2048 + 1 * b.val = b.val; rw [e1]; omega

/-- WHAT A WRITING POINT WRITES BACK is its block of the layer. -/
theorem flushed_eq (c : Dev nD) (t : Fin cfg0.N) (hf : (cfg0.win 10).flush t = true) :
    (dats m 0 c).flushed 10 t = ((cfg0.win 10).blk t).view.read (Elt Ideal) (result m c) := by
  have h7 : t.val % 8 = 7 := (flush0_10 t).mp hf
  rw [flushed10]
  refine funext fun (j : S256x2048.Idx) => ?_
  obtain ⟨a, b, rfl⟩ : ∃ (a : Fin 256) (b : Fin 2048), j = ix2 a b := ⟨j 0, j 1, eq_ix2 j⟩
  show (outsAt0 m c t.val t.isLt).1 (ix2 a b) = result m c (((cfg0.win 10).blk t).view.emb (ix2 a b))
  rw [outblk_index, out_done m c t h7]
  refine (out_apply (iblk m c 5 t) (iblk m c 6 t) (iblk m c 8 t) (iblk m c 9 t) (iblk m c 7 t) _ _ a b).trans ?_
  rw [mean_done m c t h7 a b, pert_done m c t h7 a b, r1blk_apply m c t a b, r2blk_apply m c t a b,
    blocblk_apply m c t 0 b, bstdblk_apply m c t 0 b, epsblk_apply m c t 0 b]
  rfl

/-- Every entry of the output array lies in the block of the last point of its batch tile. -/
theorem covered (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  have hN : cfg0.N = 128 := N_0
  let t : Fin cfg0.N := ⟨8 * ((i 0).val / 256) + 7, by rw [hN]; omega⟩
  have htv : t.val = 8 * ((i 0).val / 256) + 7 := rfl
  obtain ⟨-, -, -, -, -, -, -, -, -, -, -, -, -, -, -, -, -, -, -, -, e0, e1⟩ := idx_facts t
  refine ⟨t, (flush0_10 t).mpr (by rw [htv]; omega), ?_⟩
  show i ∈ ((View.whole main_v1).slice (win0_10.rect t)).set
  rw [View.set_slice_whole, Rect.mem_set_unit]
  intro d
  match d with
  | ⟨0, _⟩ =>
    show win0_10.index t (0 : Fin 2) * 256 ≤ (i 0).val ∧ (i 0).val < win0_10.index t (0 : Fin 2) * 256 + 256
    rw [e0, htv]; omega
  | ⟨1, _⟩ =>
    show win0_10.index t (1 : Fin 2) * 2048 ≤ (i 1).val ∧ (i 1).val < win0_10.index t (1 : Fin 2) * 2048 + 2048
    rw [e1]; omega

/-- THE RESULT ARRAY after the run is the layer of the argument arrays. -/
theorem final (c : Dev nD) : (dats m 0 c).arrAt 10 cfg0.N = result m c :=
  (dats m 0 c).arrAt_eq_of_cover 10 (result m c) (fun t hf => flushed_eq m c t hf) covered

/-- The kernel's run: it ends, faultless, with the result array at the layer and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.Flipout.Kernel

end
-- ==== Proof.RefValue.lean ====
/-
  The reference program computes the flipout layer, entry by entry.

  Read at batch row p and output feature q, the reference's last value is

      ( Σ_k x(p,k) · w_loc(k,q)  +  r1(p,q) · Σ_k (x(p,k) · s(p,k)) · (softplus(w_std(k,q)) · eps_w(k,q)) )
    + ( b_loc(0,q)  +  r2(p,q) · (softplus(b_std(0,q)) · eps_b(q)) ),

  which is the layer of the specification. Four facts carry this. The reference guards its softplus by the test
  "d ≠ d" on d = w - 0; on the extended reals no number differs from itself, so the guard is never taken and the
  guarded expression is max(w, 0) + log(1 + exp(-|d|)). Each of the two matrix products, read at (p, q), is a sum over
  the 2048 input features k of a left entry at (p, k) times a right entry at (k, q). The bias row is laid out over the
  batch by reading row 0 at column q, and the bias noise vector is read at q. The sign arrays enter as the integers
  they hold.
-/
import proofs.«156300_j45114336477600_1_alg».proof.Proof.Gen.ReferenceIdeal.Read
import proofs.«156300_j45114336477600_1_alg».proof.Proof.Spec
import proofs.«156300_j45114336477600_1_alg».proof.Proof.LibMatmul

noncomputable section

namespace Cert.Flipout.Ref

open Idealize.ShloMosaic Idealize.ShloMosaic.ValueIdx Cert.ReferenceIdeal Cert.ReferenceIdeal.Read

/-! ## The softplus guard -/

/-- No extended real differs from itself: the comparison "d ≠ d" answers the bit 0. -/
theorem cmp_une_self {φ : FTy} (d : Ideal φ) : FloatOps.cmpf (F := Ideal) .une d d = 0#1 := by
  show BitVec.ofBool (decide (d ≠ d)) = 0#1
  rw [decide_eq_false (fun h => h rfl)]
  rfl

/-! ## softplus at an element -/

/-- softplus of the weight deviations, at an entry of the square array: the guard is not taken, and what remains is
    max(w, 0) + log(1 + exp(-|w - 0|)). -/
theorem softplus_weight (x2 : (⟨S2048x2048, .f32⟩ : BufTy).Contents (Elt Ideal)) (i : S2048x2048.Idx) :
    val_main_v3 (F := Ideal) x2 i = softplus (x2 i) := by
  rw [val_main_v3_apply, val_main_call0_v4_apply, cmp_une_self, select_zero,
    val_main_call0_v11_apply, val_main_call0_v1_apply, val_main_call0_v0_apply,
    val_main_call0_v10_apply, val_main_call0_v9_apply, val_main_call0_v8_apply, val_main_call0_v7_apply,
    val_main_call0_v3_apply, val_main_call0_v2_apply]
  simp only [val_main_call0_cst_apply]
  rfl

/-- The bias deviations are read from their one row: entry q of the flattened row is the row's entry (0, q). -/
theorem flat_row (q : Fin 2048) : idx_main_v10 (ix1 q) = ix2 0 q :=
  funext fun a => Fin.ext (by
    match a with
    | ⟨0, _⟩ => rfl
    | ⟨1, _⟩ => exact Nat.mod_eq_of_lt q.isLt)

/-- softplus of the bias deviations, at an entry of the flattened row. -/
theorem softplus_bias (x4 : (⟨S1x2048, .f32⟩ : BufTy).Contents (Elt Ideal)) (q : Fin 2048) :
    val_main_v11 (F := Ideal) x4 (ix1 q) = softplus (x4 (ix2 0 q)) := by
  rw [val_main_v11_apply, val_main_call1_v4_apply, cmp_une_self, select_zero,
    val_main_call1_v11_apply, val_main_call1_v1_apply, val_main_call1_v0_apply,
    val_main_call1_v10_apply, val_main_call1_v9_apply, val_main_call1_v8_apply, val_main_call1_v7_apply,
    val_main_call1_v3_apply, val_main_call1_v2_apply, val_main_v10_apply, flat_row]
  simp only [val_main_call1_cst_apply]
  rfl

/-! ## The two matrix products at (p, q) -/

/-- The mean product: Σ_k x(p,k) · w_loc(k,q). -/
theorem mean_apply (x0 : (⟨S4096x2048, .f32⟩ : BufTy).Contents (Elt Ideal))
    (x1 : (⟨S2048x2048, .f32⟩ : BufTy).Contents (Elt Ideal)) (p : Fin 4096) (q : Fin 2048) :
    val_main_v8 (F := Ideal) x0 x1 (ix2 p q) = ∑ k : Fin 2048, meanTerm x0 x1 p q k := by
  rw [val_main_v8_apply]
  refine Finset.sum_congr rfl fun k _ => ?_
  have el : lidx_main_v8 (ix2 p q) k = ix2 p k :=
    funext fun a => Fin.ext (by match a with | ⟨0, _⟩ => rfl | ⟨1, _⟩ => rfl)
  have er : ridx_main_v8 (ix2 p q) k = ix2 k q :=
    funext fun a => Fin.ext (by match a with | ⟨0, _⟩ => rfl | ⟨1, _⟩ => rfl)
  rw [el, er]
  rfl

/-- The perturbation product: Σ_k (x(p,k) · s(p,k)) · (softplus(w_std(k,q)) · eps_w(k,q)). -/
theorem pert_apply (x0 : (⟨S4096x2048, .f32⟩ : BufTy).Contents (Elt Ideal))
    (x2 x5 : (⟨S2048x2048, .f32⟩ : BufTy).Contents (Elt Ideal))
    (x7 : (⟨S4096x2048, .i32⟩ : BufTy).Contents (Elt Ideal)) (p : Fin 4096) (q : Fin 2048) :
    val_main_v6 (F := Ideal) x0 x2 x5 x7 (ix2 p q) = ∑ k : Fin 2048, pertTerm x0 x7 x2 x5 p q k := by
  rw [val_main_v6_apply]
  refine Finset.sum_congr rfl fun k _ => ?_
  have el : lidx_main_v6 (ix2 p q) k = ix2 p k :=
    funext fun a => Fin.ext (by match a with | ⟨0, _⟩ => rfl | ⟨1, _⟩ => rfl)
  have er : ridx_main_v6 (ix2 p q) k = ix2 k q :=
    funext fun a => Fin.ext (by match a with | ⟨0, _⟩ => rfl | ⟨1, _⟩ => rfl)
  rw [el, er, val_main_v5_apply, val_main_v0_apply, val_main_v4_apply, softplus_weight]
  rfl

/-! ## The bias part at (p, q) -/

/-- The bias row laid out over the batch reads row 0 at column q. -/
theorem row_of_batch (p : Fin 4096) (q : Fin 2048) : idx_main_v16 (ix2 p q) = ix2 0 q :=
  funext fun a => Fin.ext (by match a with | ⟨0, _⟩ => rfl | ⟨1, _⟩ => rfl)

/-- The bias perturbation laid out over the batch reads the noise-scaled vector at q. -/
theorem vec_of_batch (p : Fin 4096) (q : Fin 2048) : idx_main_v13 (idx_main_v14 (ix2 p q)) = ix1 q :=
  funext fun a => Fin.ext (by match a with | ⟨0, _⟩ => rfl)

/-- b_loc(0,q) + r2(p,q) · (softplus(b_std(0,q)) · eps_b(q)). -/
theorem bias_apply (x3 x4 : (⟨S1x2048, .f32⟩ : BufTy).Contents (Elt Ideal))
    (x6 : (⟨S2048, .f32⟩ : BufTy).Contents (Elt Ideal))
    (x9 : (⟨S4096x2048, .i32⟩ : BufTy).Contents (Elt Ideal)) (p : Fin 4096) (q : Fin 2048) :
    val_main_v17 (F := Ideal) x3 x4 x6 x9 (ix2 p q) = biasPart x3 x4 x6 x9 p q := by
  rw [val_main_v17_apply, val_main_v16_apply, row_of_batch, val_main_v15_apply, val_main_v2_apply,
    val_main_v14_apply, val_main_v13_apply, vec_of_batch, val_main_v12_apply, softplus_bias]
  rfl

/-! ## The reference is the layer -/

/-- THE REFERENCE'S RESULT IS THE LAYER OF THE SPECIFICATION. -/
theorem reference_is_layer
    (x0 : (⟨Cert.ReferenceIdeal.S4096x2048, .f32⟩ : BufTy).Contents (Elt Ideal))
    (x1 x2 : (⟨Cert.ReferenceIdeal.S2048x2048, .f32⟩ : BufTy).Contents (Elt Ideal))
    (x3 x4 : (⟨Cert.ReferenceIdeal.S1x2048, .f32⟩ : BufTy).Contents (Elt Ideal))
    (x5 : (⟨Cert.ReferenceIdeal.S2048x2048, .f32⟩ : BufTy).Contents (Elt Ideal))
    (x6 : (⟨Cert.ReferenceIdeal.S2048, .f32⟩ : BufTy).Contents (Elt Ideal))
    (x7 x8 x9 : (⟨Cert.ReferenceIdeal.S4096x2048, .i32⟩ : BufTy).Contents (Elt Ideal)) :
    Cert.ReferenceIdeal.Read.val_main_v18 (F := Ideal) x0 x1 x2 x3 x4 x5 x6 x7 x8 x9
      = Cert.Flipout.layer x0 x1 x2 x3 x4 x5 x6 x7 x8 x9 := by
  funext j
  obtain ⟨p, q, rfl⟩ : ∃ (p : Fin 4096) (q : Fin 2048), j = ix2 p q := ⟨j 0, j 1, eq_ix2 j⟩
  rw [val_main_v18_apply, val_main_v9_apply, val_main_v7_apply, val_main_v1_apply, mean_apply, pert_apply,
    bias_apply]
  rfl

end Cert.Flipout.Ref

end
-- ==== Proof.lean ====
/-
  A flipout Bayesian dense layer: a Pallas kernel against its jnp reference, over the extended reals.

  Both programs compute, at batch row p and output feature q,

      ( Σ_k x(p,k) · w_loc(k,q)  +  r1(p,q) · Σ_k (x(p,k) · s(p,k)) · (softplus(w_std(k,q)) · eps_w(k,q)) )
    + ( b_loc(0,q)  +  r2(p,q) · (softplus(b_std(0,q)) · eps_b(q)) ),

  k over the 2048 input features (Proof/Spec.lean states this function once, for both sides). The reference computes the
  two sums as whole matrix products. The kernel walks 16 batch tiles by 8 feature tiles and keeps two accumulators per
  batch tile: each point adds the 256 terms of its feature tile, the first point of a tile starting from zero, and the
  last point of a tile combines the finished sums with the sign arrays and the bias row and stores the tile's output
  block. The sum of 2048 terms taken in eight blocks of 256 is the same sum (addition on the extended reals is
  commutative and associative), the kernel's narrowing of its operands before the products is the identity on the
  extended reals, and its guarded softplus is the plain one because no extended real differs from itself. So the two result
  arrays agree entry by entry; no finiteness of the inputs is used. The idealization rewrote nothing, so the kernel's
  idealized text is its own.
-/
import proofs.«156300_j45114336477600_1_alg».proof.Defs
import proofs.«156300_j45114336477600_1_alg».proof.Proof.Gen.Kernel
import proofs.«156300_j45114336477600_1_alg».proof.Proof.Gen.Kernel.Skeleton
import proofs.«156300_j45114336477600_1_alg».proof.Proof.Gen.Kernel.Launch
import proofs.«156300_j45114336477600_1_alg».proof.Proof.Gen.Kernel.Points
import proofs.«156300_j45114336477600_1_alg».proof.Proof.Gen.Kernel.Frame
import proofs.«156300_j45114336477600_1_alg».proof.Proof.Gen.KernelIdeal
import proofs.«156300_j45114336477600_1_alg».proof.Proof.Gen.KernelIdeal.Skeleton
import proofs.«156300_j45114336477600_1_alg».proof.Proof.Gen.KernelIdeal.Launch
import proofs.«156300_j45114336477600_1_alg».proof.Proof.Gen.KernelIdeal.Points
import proofs.«156300_j45114336477600_1_alg».proof.Proof.Gen.KernelIdeal.Frame
import proofs.«156300_j45114336477600_1_alg».proof.Proof.Gen.ReferenceIdeal
import proofs.«156300_j45114336477600_1_alg».proof.Proof.Gen.Pre_finite_inputs
import proofs.«156300_j45114336477600_1_alg».proof.Proof.Gen.KernelIdeal.Value
import proofs.«156300_j45114336477600_1_alg».proof.Proof.Gen.ReferenceIdeal.Run
import proofs.«156300_j45114336477600_1_alg».proof.Proof.Gen.ReferenceIdeal.Read
import proofs.«156300_j45114336477600_1_alg».proof.Proof.KernelValue
import proofs.«156300_j45114336477600_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array is the layer of its arguments (the accumulated blocks), the reference's is the layer of its
    arguments (the whole products), and the arguments agree. -/
theorem algebraic : Cert.algebraic_KernelIdeal_ReferenceIdeal := by
  intro m ρ m' ρ' _ hagree
  refine ⟨fun c => Cert.Flipout.Kernel.result m c, Cert.Flipout.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Flipout.Ref.reference_is_layer]
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
